-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S10000x128 : Shape := ⟨2, ![10000, 128]⟩
abbrev S128x64 : Shape := ⟨2, ![128, 64]⟩
abbrev S1x64 : Shape := ⟨2, ![1, 64]⟩
abbrev S100000x64 : Shape := ⟨2, ![100000, 64]⟩
abbrev S10000x64 : Shape := ⟨2, ![10000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S128x64, .f32⟩
  | .hbm, ⟨60, _⟩ => ⟨S128x64, .f32⟩
  | .hbm, ⟨61, _⟩ => ⟨S1x64, .f32⟩
  | .hbm, ⟨62, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v24) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S128x64, .f32⟩
  | .hbm, ⟨83, _⟩ => ⟨S100000x64, .f32⟩
  | .hbm, ⟨84, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibLayout.lean ====
import proofs.«181414_j59219009077768_1_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.SageDense.lean ====
import proofs.«181414_j59219009077768_1_alg».proof.Proof.LibDenseDefs
import proofs.«181414_j59219009077768_1_alg».proof.Proof.LibContract
import proofs.«181414_j59219009077768_1_alg».proof.Proof.LibLayout
import Idealize.ShloMosaic.Lib.ValueLayout
import Idealize.ShloMosaic.Lib.Pipeline.Value

/-!
# The layer's dense part: two products and a bias, in a kernel's order and in the host's

For rows `a` (the averaged neighbours) and `x` (the node's own features), weights `wl`, `wr` and a bias row `b`,
`dense a x wl wr b` has at `(r, q)` the value `(∑ k, a[r, k] · wl[k, q] + ∑ k, x[r, k] · wr[k, q]) + b[0, q]`.
A kernel computes it in that order from bf16 copies (the identity on the extended reals); the host adds the bias to the
first product before the second product. Addition of extended reals is commutative and associative, so the two orders
agree at every entry with no finiteness needed. An entry of row `r` reads row `r` of `a` and of `x` only, so a block of
rows of the result is the same function of the same block of rows of the operands.
-/

noncomputable section

namespace Cert.Sage

open Idealize.ShloMosaic Idealize.ShloMosaic.ValueIdx Cert.LibDense

/-- `(a · wl + x · wr) + b`, the bias a `[1, N]` row: at `(r, q)` it is
    `(∑ k, a[r, k] · wl[k, q] + ∑ k, x[r, k] · wr[k, q]) + b[0, q]`. -/
def dense {M K N : Nat} (a x : Mat M K) (wl wr : Mat K N) (b : Mat 1 N) : Mat M N := fun i =>
  ((∑ k : Fin K, a (ix2 (i 0) k) * wl (ix2 k (i 1))) + ∑ k : Fin K, x (ix2 (i 0) k) * wr (ix2 k (i 1)))
    + b (ix2 (0 : Fin 1) (i 1))

theorem dense_apply {M K N : Nat} (a x : Mat M K) (wl wr : Mat K N) (b : Mat 1 N) (r : Fin M) (q : Fin N) :
    dense a x wl wr b (ix2 r q)
      = ((∑ k : Fin K, a (ix2 r k) * wl (ix2 k q)) + ∑ k : Fin K, x (ix2 r k) * wr (ix2 k q)) + b (ix2 (0 : Fin 1) q) := rfl

/-- An entry of row `r` depends on row `r` of the two row operands only. -/
theorem dense_rows {M M' K N : Nat} (a x : Mat M K) (a' x' : Mat M' K) (wl wr : Mat K N) (b : Mat 1 N) (r : Fin M)
    (r' : Fin M') (q : Fin N) (ha : ∀ k : Fin K, a (ix2 r k) = a' (ix2 r' k)) (hx : ∀ k : Fin K, x (ix2 r k) = x' (ix2 r' k)) :
    dense a x wl wr b (ix2 r q) = dense a' x' wl wr b (ix2 r' q) := by
  rw [dense_apply, dense_apply]
  congr 2
  · exact Finset.sum_congr rfl fun k _ => by rw [ha k]
  · exact Finset.sum_congr rfl fun k _ => by rw [hx k]

/-- A `[1, N]` row broadcast down `M` rows reads, at `(p, q)`, the row at `(0, q)`. -/
theorem rowBroadcast_apply {α : Type} (M N : Nat) (hb : (⟨2, ![1, N]⟩ : Shape).Broadcasts ⟨2, ![M, N]⟩)
    (b : (⟨2, ![1, N]⟩ : Shape).Idx → α) (p : Fin M) (q : Fin N) :
    broadcastTo ⟨2, ![M, N]⟩ b hb (ix2 p q) = b (ix2 (0 : Fin 1) q) := by
  have hq := q.isLt
  refine broadcastTo_apply b hb (ix2 p q) (ix2 (0 : Fin 1) q) ?_
  intro a
  match a with
  | ⟨0, _⟩ => exact (if_pos rfl).symm
  | ⟨1, _⟩ =>
    show q.val = if N = 1 then 0 else q.val
    split
    · omega
    · rfl

/-- A vector recast as a `[1, N]` row reads, at `(0, q)`, the vector at `q`. -/
theorem rowCast_apply {α : Type} (N : Nat) (hc : (⟨1, ![N]⟩ : Shape).ShapeCasts ⟨2, ![1, N]⟩)
    (b : (⟨1, ![N]⟩ : Shape).Idx → α) (q : Fin N) :
    shapeCast ⟨2, ![1, N]⟩ b hc (ix2 (0 : Fin 1) q) = b (ix1 q) := by
  refine shapeCast_apply b hc (ix2 (0 : Fin 1) q) (ix1 q) ?_
  rw [Shape.rowMajor_val_one, Shape.rowMajor_val_two]
  show q.val = 0 * N + q.val
  omega

/-- A KERNEL'S SPELLING: the two products from bf16 copies into zero accumulators, added, then the bias row broadcast
    down the rows and added. -/
theorem kernDense_eq (M K N : Nat) (prec : Option ContractPrecision) (hb : (⟨2, ![1, N]⟩ : Shape).Broadcasts ⟨2, ![M, N]⟩)
    (ht : FTy.bf16.bits < FTy.f32.bits) (a x : FVec Ideal (⟨2, ![M, K]⟩ : Shape) .f32)
    (wl wr : FVec Ideal (⟨2, ![K, N]⟩ : Shape) .f32) (b : FVec Ideal (⟨2, ![1, N]⟩ : Shape) .f32) :
    addf (addf (matmul (DotDims.plain M K N) prec (truncf .bf16 a ht) (truncf .bf16 wl ht)
            (constant (F := Ideal) (⟨2, ![M, N]⟩ : Shape) .f32 0x00000000#32))
          (matmul (DotDims.plain M K N) prec (truncf .bf16 x ht) (truncf .bf16 wr ht)
            (constant (F := Ideal) (⟨2, ![M, N]⟩ : Shape) .f32 0x00000000#32)))
        (broadcastTo ⟨2, ![M, N]⟩ b hb)
      = dense a x wl wr b := by
  funext i
  obtain ⟨p, q, rfl⟩ : ∃ (p : Fin M) (q : Fin N), i = ix2 p q := ⟨i 0, i 1, eq_ix2 i⟩
  refine (addf_apply _ _ _).trans ?_
  rw [addf_apply, matmul_plain_zero_apply, matmul_plain_zero_apply, rowBroadcast_apply, dense_apply]
  rfl

/-- THE HOST'S SPELLING: the first product, plus the bias vector laid along the columns, plus the second product — the
    same entries, the three summands in another order. -/
theorem hostDense_eq (M K N : Nat) (prec : Option ContractPrecision)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩)
    (a x : FVec Ideal (⟨2, ![M, K]⟩ : Shape) .f32) (wl wr : FVec Ideal (⟨2, ![K, N]⟩ : Shape) .f32)
    (b : FVec Ideal (⟨1, ![N]⟩ : Shape) .f32) :
    addf (addf (Host.dotGeneral (DotDims.plain M K N) prec a wl)
          (broadcastInDim ⟨2, ![M, N]⟩ ![0, 1] h₂ (broadcastInDim ⟨2, ![1, N]⟩ ![1] h₁ b)))
        (Host.dotGeneral (DotDims.plain M K N) prec x wr)
      = dense a x wl wr (shapeCast ⟨2, ![1, N]⟩ b hc) := by
  funext i
  obtain ⟨p, q, rfl⟩ : ∃ (p : Fin M) (q : Fin N), i = ix2 p q := ⟨i 0, i 1, eq_ix2 i⟩
  refine (addf_apply _ _ _).trans ?_
  rw [addf_apply, dotGeneral_plain_apply, dotGeneral_plain_apply, hostBias_apply, dense_apply, rowCast_apply]
  exact add_right_comm _ _ _

end Cert.Sage

end
-- ==== Proof.KernelRegion0.lean ====
import proofs.«181414_j59219009077768_1_alg».proof.Proof.Gen.KernelIdeal.Frame
import proofs.«181414_j59219009077768_1_alg».proof.Proof.SageDense
import Idealize.ShloMosaic.Lib.Pipeline.Value

/-!
# The first layer's call: the array it leaves, as one function of the arrays it reads

The call runs ten grid points; point `t` reads rows `10000 t … 10000 t + 9999` of the averaged neighbours and of the
node features, the whole of the two weight arrays and of the bias row, and writes the same rows of the result:
`relu` of the layer's dense part of those rows. An entry of a row reads that row of the two row operands only, so each
written block is the block of ONE array, `relu (dense …)` of the whole operands; the ten blocks tile the result.
-/

noncomputable section

namespace Cert.KernelIdeal.Layer1

open Cert.KernelIdeal Cert.KernelIdeal.Gen Idealize.ShloMosaic Idealize.ShloMosaic.TcCoe Idealize.SL.Sem
open Idealize.ShloMosaic.ValueIdx Cert.LibDense Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores, from the blocks it loads: `relu` of the dense part. -/
theorem pay_eq (x0 x1 : Vec Ideal S10000x128 .f32) (x2 x3 : Vec Ideal S128x128 .f32) (x4 : Vec Ideal S1x128 .f32) :
    k0_pay1 x0 x1 x2 x3 x4 = reluM (dense x0 x1 x2 x3 x4) := by
  unfold k0_pay1
  simp only [shapeCast_self]
  rw [kernRelu_eq]
  exact congrArg reluM (kernDense_eq 10000 128 128 none _ _ x0 x1 x2 x3 x4)

/-- The printed index maps over the ten points: the row windows and the result move with the point, the weights and
    the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt_ten (t : Fin cfg0.N) : t.val < 10 := by
  have h : t.val < cfg0.N := t.isLt
  have e : cfg0.N = 10 := N_0
  omega

/-- Row `r` of point `t`'s block of the averaged neighbours is row `10000 t + r` of the array. -/
theorem block_agg (c : Dev nD) (t : Fin cfg0.N) (r : Fin 10000) (k : Fin 128) (i : Fin 100000) (hi : i.val = 10000 * t.val + r.val) :
    (iblk0 V c 0 t : Vec Ideal S10000x128 .f32) (ix2 r k) = (V c main_v24 : S100000x128.Idx → EReal) (ix2 i k) := by
  unfold iblk0
  rw [View.read_apply]
  show V c main_v24 _ = V c main_v24 _
  congr 1
  funext a
  apply Fin.ext
  obtain ⟨e0, e1, -⟩ := idx_facts t
  match a with
  | ⟨0, _⟩ => show win0_0.index t (0 : Fin 2) * 10000 + 1 * r.val = i.val; rw [e0, hi]; omega
  | ⟨1, _⟩ => show win0_0.index t (1 : Fin 2) * 128 + 1 * k.val = k.val; rw [e1]; omega

/-- Row `r` of point `t`'s block of the node features is row `10000 t + r` of the array. -/
theorem block_x (c : Dev nD) (t : Fin cfg0.N) (r : Fin 10000) (k : Fin 128) (i : Fin 100000) (hi : i.val = 10000 * t.val + r.val) :
    (iblk0 V c 1 t : Vec Ideal S10000x128 .f32) (ix2 r k) = (V c main_arg0 : S100000x128.Idx → EReal) (ix2 i k) := by
  unfold iblk0
  rw [View.read_apply]
  show V c main_arg0 _ = V c main_arg0 _
  congr 1
  funext a
  apply Fin.ext
  obtain ⟨-, -, e0, e1, -⟩ := idx_facts t
  match a with
  | ⟨0, _⟩ => show win0_1.index t (0 : Fin 2) * 10000 + 1 * r.val = i.val; rw [e0, hi]; omega
  | ⟨1, _⟩ => show win0_1.index t (1 : Fin 2) * 128 + 1 * k.val = k.val; rw [e1]; omega

/-- Every point's block of the first weight array is the whole array. -/
theorem block_wl (c : Dev nD) (t : Fin cfg0.N) : (iblk0 V c 2 t : Vec Ideal S128x128 .f32) = V c main_v25 := by
  funext y
  unfold iblk0
  rw [View.read_apply]
  show V c main_v25 _ = V c main_v25 _
  congr 1
  funext a
  apply Fin.ext
  obtain ⟨-, -, -, -, e0, e1, -⟩ := idx_facts t
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Every point's block of the second weight array is the whole array. -/
theorem block_wr (c : Dev nD) (t : Fin cfg0.N) : (iblk0 V c 3 t : Vec Ideal S128x128 .f32) = V c main_v26 := by
  funext y
  unfold iblk0
  rw [View.read_apply]
  show V c main_v26 _ = V c main_v26 _
  congr 1
  funext a
  apply Fin.ext
  obtain ⟨-, -, -, -, -, -, e0, e1, -⟩ := idx_facts t
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Every point's block of the bias row is the whole row. -/
theorem block_b (c : Dev nD) (t : Fin cfg0.N) : (iblk0 V c 4 t : Vec Ideal S1x128 .f32) = V c main_v27 := by
  funext y
  unfold iblk0
  rw [View.read_apply]
  show V c main_v27 _ = V c main_v27 _
  congr 1
  funext a
  apply Fin.ext
  obtain ⟨-, -, -, -, -, -, -, -, e0, e1, -⟩ := idx_facts t
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- THE RESULT ARRAY: `relu` of the dense part of the five arrays the call reads, as it finds them. -/
abbrev hidden (c : Dev nD) : Buf (Elt Ideal) ((c : Thread nD τ).loc main_v28) :=
  reluM (dense (M := 100000) (K := 128) (N := 128) (V c main_v24) (V c main_arg0) (V c main_v25) (V c main_v26) (V c main_v27))

/-- Entry `(r, q)` of point `t`'s block of the result array is entry `(10000 t + r, q)` of the array. -/
theorem block_out (t : Fin cfg0.N) (r : Fin 10000) (q : Fin 128) :
    ((cfg0.win 5).blk t).view.emb (ix2 r q) = ix2 (⟨10000 * t.val + r.val, by have := lt_ten t; omega⟩ : Fin 100000) q := by
  funext a
  apply Fin.ext
  obtain ⟨-, -, -, -, -, -, -, -, -, -, e0, e1⟩ := idx_facts t
  match a with
  | ⟨0, _⟩ => show win0_5.index t (0 : Fin 2) * 10000 + 1 * r.val = 10000 * t.val + r.val; rw [e0]; omega
  | ⟨1, _⟩ => show win0_5.index t (1 : Fin 2) * 128 + 1 * q.val = q.val; rw [e1]; omega

/-- WHAT POINT `t` WRITES BACK is block `t` of `hidden`. -/
theorem flushed_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz, View.ld_unit_zero (S := S1x128) hz]
  rw [pay_eq, block_wl, block_wr, block_b]
  funext j
  obtain ⟨r, q, rfl⟩ : ∃ (r : Fin 10000) (q : Fin 128), j = ix2 r q := ⟨j 0, j 1, eq_ix2 j⟩
  rw [View.read_apply, block_out]
  show relu (dense _ _ _ _ _ (ix2 r q)) = relu (dense _ _ _ _ _ (ix2 _ q))
  congr 1
  exact dense_rows _ _ _ _ _ _ _ r _ q (fun k => block_agg V c t r k _ rfl) (fun k => block_x V c t r k _ rfl)

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v28).slice (win0_5.rect t)).set ↔ _
  rw [View.set_slice_whole, Rect.mem_set_unit]
  exact Iff.rfl

/-- THE ARRAY AFTER THE CALL is `hidden`: row `n` lies in the block of point `n / 10000`. -/
theorem final (c : Dev nD) : (dat0 V c).arrAt 5 cfg0.N = hidden V c :=
  (dat0 V c).arrAt_eq_of_cover 5 (hidden V c) (fun t _ => flushed_eq V c t) fun i => by
    have hi0 : (i 0).val < 100000 := (i 0).isLt
    have hi1 : (i 1).val < 128 := (i 1).isLt
    refine ⟨⟨(i 0).val / 10000, by rw [show cfg0.N = 10 from N_0]; omega⟩, flush0_5 _, ?_⟩
    rw [mem_blk]
    obtain ⟨-, -, -, -, -, -, -, -, -, -, e0, e1⟩ := idx_facts ⟨(i 0).val / 10000, by rw [show cfg0.N = 10 from N_0]; omega⟩
    intro a
    match a with
    | ⟨0, _⟩ =>
      show win0_5.index _ (0 : Fin 2) * 10000 ≤ (i 0).val ∧ (i 0).val < win0_5.index _ (0 : Fin 2) * 10000 + 10000
      rw [e0]; show (i 0).val / 10000 * 10000 ≤ (i 0).val ∧ (i 0).val < (i 0).val / 10000 * 10000 + 10000; omega
    | ⟨1, _⟩ =>
      show win0_5.index _ (1 : Fin 2) * 128 ≤ (i 1).val ∧ (i 1).val < win0_5.index _ (1 : Fin 2) * 128 + 128
      rw [e1]; omega

end Cert.KernelIdeal.Layer1

end
-- ==== Proof.KernelRegion1.lean ====
import proofs.«181414_j59219009077768_1_alg».proof.Proof.Gen.KernelIdeal.Frame
import proofs.«181414_j59219009077768_1_alg».proof.Proof.SageDense
import Idealize.ShloMosaic.Lib.Pipeline.Value

/-!
# The second layer's call: the array it leaves, as one function of the arrays it reads

As in the first layer's call, ten grid points, point `t` on rows `10000 t … 10000 t + 9999`: it reads those rows of the
averaged hidden rows and of the hidden rows, the whole of the two `128 × 64` weight arrays and of the bias row, and
writes the same rows of the result, the layer's dense part with no `relu`. The ten blocks tile the result, which is
therefore `dense …` of the whole operands.
-/

noncomputable section

namespace Cert.KernelIdeal.Layer2

open Cert.KernelIdeal Cert.KernelIdeal.Gen Idealize.ShloMosaic Idealize.ShloMosaic.TcCoe Idealize.SL.Sem
open Idealize.ShloMosaic.ValueIdx Cert.LibDense Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores, from the blocks it loads: the dense part. -/
theorem pay_eq (x0 x1 : Vec Ideal S10000x128 .f32) (x2 x3 : Vec Ideal S128x64 .f32) (x4 : Vec Ideal S1x64 .f32) :
    k1_pay1 x0 x1 x2 x3 x4 = dense x0 x1 x2 x3 x4 := by
  unfold k1_pay1
  simp only [shapeCast_self]
  exact kernDense_eq 10000 128 64 none _ _ x0 x1 x2 x3 x4

/-- The printed index maps over the ten points: the row windows and the result move with the point, the weights and
    the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt_ten (t : Fin cfg1.N) : t.val < 10 := by
  have h : t.val < cfg1.N := t.isLt
  have e : cfg1.N = 10 := N_1
  omega

/-- Row `r` of point `t`'s block of the averaged hidden rows is row `10000 t + r` of the array. -/
theorem block_agg (c : Dev nD) (t : Fin cfg1.N) (r : Fin 10000) (k : Fin 128) (i : Fin 100000) (hi : i.val = 10000 * t.val + r.val) :
    (iblk1 V c 0 t : Vec Ideal S10000x128 .f32) (ix2 r k) = (V c main_v40 : S100000x128.Idx → EReal) (ix2 i k) := by
  unfold iblk1
  rw [View.read_apply]
  show V c main_v40 _ = V c main_v40 _
  congr 1
  funext a
  apply Fin.ext
  obtain ⟨e0, e1, -⟩ := idx_facts t
  match a with
  | ⟨0, _⟩ => show win1_0.index t (0 : Fin 2) * 10000 + 1 * r.val = i.val; rw [e0, hi]; omega
  | ⟨1, _⟩ => show win1_0.index t (1 : Fin 2) * 128 + 1 * k.val = k.val; rw [e1]; omega

/-- Row `r` of point `t`'s block of the hidden rows is row `10000 t + r` of the array. -/
theorem block_x (c : Dev nD) (t : Fin cfg1.N) (r : Fin 10000) (k : Fin 128) (i : Fin 100000) (hi : i.val = 10000 * t.val + r.val) :
    (iblk1 V c 1 t : Vec Ideal S10000x128 .f32) (ix2 r k) = (V c main_v28 : S100000x128.Idx → EReal) (ix2 i k) := by
  unfold iblk1
  rw [View.read_apply]
  show V c main_v28 _ = V c main_v28 _
  congr 1
  funext a
  apply Fin.ext
  obtain ⟨-, -, e0, e1, -⟩ := idx_facts t
  match a with
  | ⟨0, _⟩ => show win1_1.index t (0 : Fin 2) * 10000 + 1 * r.val = i.val; rw [e0, hi]; omega
  | ⟨1, _⟩ => show win1_1.index t (1 : Fin 2) * 128 + 1 * k.val = k.val; rw [e1]; omega

/-- Every point's block of the first weight array is the whole array. -/
theorem block_wl (c : Dev nD) (t : Fin cfg1.N) : (iblk1 V c 2 t : Vec Ideal S128x64 .f32) = V c main_v41 := by
  funext y
  unfold iblk1
  rw [View.read_apply]
  show V c main_v41 _ = V c main_v41 _
  congr 1
  funext a
  apply Fin.ext
  obtain ⟨-, -, -, -, e0, e1, -⟩ := idx_facts t
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

/-- Every point's block of the second weight array is the whole array. -/
theorem block_wr (c : Dev nD) (t : Fin cfg1.N) : (iblk1 V c 3 t : Vec Ideal S128x64 .f32) = V c main_v42 := by
  funext y
  unfold iblk1
  rw [View.read_apply]
  show V c main_v42 _ = V c main_v42 _
  congr 1
  funext a
  apply Fin.ext
  obtain ⟨-, -, -, -, -, -, e0, e1, -⟩ := idx_facts t
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- Every point's block of the bias row is the whole row. -/
theorem block_b (c : Dev nD) (t : Fin cfg1.N) : (iblk1 V c 4 t : Vec Ideal S1x64 .f32) = V c main_v43 := by
  funext y
  unfold iblk1
  rw [View.read_apply]
  show V c main_v43 _ = V c main_v43 _
  congr 1
  funext a
  apply Fin.ext
  obtain ⟨-, -, -, -, -, -, -, -, e0, e1, -⟩ := idx_facts t
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- THE RESULT ARRAY: the dense part of the five arrays the call reads, as it finds them. -/
abbrev out (c : Dev nD) : Buf (Elt Ideal) ((c : Thread nD τ).loc main_v44) :=
  dense (M := 100000) (K := 128) (N := 64) (V c main_v40) (V c main_v28) (V c main_v41) (V c main_v42) (V c main_v43)

/-- Entry `(r, q)` of point `t`'s block of the result array is entry `(10000 t + r, q)` of the array. -/
theorem block_out (t : Fin cfg1.N) (r : Fin 10000) (q : Fin 64) :
    ((cfg1.win 5).blk t).view.emb (ix2 r q) = ix2 (⟨10000 * t.val + r.val, by have := lt_ten t; omega⟩ : Fin 100000) q := by
  funext a
  apply Fin.ext
  obtain ⟨-, -, -, -, -, -, -, -, -, -, e0, e1⟩ := idx_facts t
  match a with
  | ⟨0, _⟩ => show win1_5.index t (0 : Fin 2) * 10000 + 1 * r.val = 10000 * t.val + r.val; rw [e0]; omega
  | ⟨1, _⟩ => show win1_5.index t (1 : Fin 2) * 64 + 1 * q.val = q.val; rw [e1]; omega

/-- WHAT POINT `t` WRITES BACK is block `t` of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x64) hz, View.ld_unit_zero (S := S1x64) hz]
  rw [pay_eq, block_wl, block_wr, block_b]
  funext j
  obtain ⟨r, q, rfl⟩ : ∃ (r : Fin 10000) (q : Fin 64), j = ix2 r q := ⟨j 0, j 1, eq_ix2 j⟩
  rw [View.read_apply, block_out]
  exact dense_rows _ _ _ _ _ _ _ r _ q (fun k => block_agg V c t r k _ rfl) (fun k => block_x V c t r k _ rfl)

/-- An index of the result array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v44).slice (win1_5.rect t)).set ↔ _
  rw [View.set_slice_whole, Rect.mem_set_unit]
  exact Iff.rfl

/-- THE ARRAY AFTER THE CALL is `out`: row `n` lies in the block of point `n / 10000`. -/
theorem final (c : Dev nD) : (dat1 V c).arrAt 5 cfg1.N = out V c :=
  (dat1 V c).arrAt_eq_of_cover 5 (out V c) (fun t _ => flushed_eq V c t) fun i => by
    have hi0 : (i 0).val < 100000 := (i 0).isLt
    have hi1 : (i 1).val < 64 := (i 1).isLt
    refine ⟨⟨(i 0).val / 10000, by rw [show cfg1.N = 10 from N_1]; omega⟩, flush1_5 _, ?_⟩
    rw [mem_blk]
    obtain ⟨-, -, -, -, -, -, -, -, -, -, e0, e1⟩ := idx_facts ⟨(i 0).val / 10000, by rw [show cfg1.N = 10 from N_1]; omega⟩
    intro a
    match a with
    | ⟨0, _⟩ =>
      show win1_5.index _ (0 : Fin 2) * 10000 ≤ (i 0).val ∧ (i 0).val < win1_5.index _ (0 : Fin 2) * 10000 + 10000
      rw [e0]; show (i 0).val / 10000 * 10000 ≤ (i 0).val ∧ (i 0).val < (i 0).val / 10000 * 10000 + 10000; omega
    | ⟨1, _⟩ =>
      show win1_5.index _ (1 : Fin 2) * 64 ≤ (i 1).val ∧ (i 1).val < win1_5.index _ (1 : Fin 2) * 64 + 64
      rw [e1]; omega

end Cert.KernelIdeal.Layer2

end
-- ==== Proof.LibScatterAddRows.lean ====
/-
  A float scatter-add along the leading axis, read at an index, on the extended reals. For an operand [N] (or a column
  operand [N, 1]), a column [R, 1] of destination words and updates [R] (or [R, 1]), the accumulating scatter that
  inserts the leading axis — jnp's x.at[idx[:, 0]].add(u), a segment sum — leaves at row n the operand's element plus
  the sum of the updates whose destination word, read as a signed integer and NOT clamped, is n. An update whose word
  names no row is dropped. The flat form and the column form therefore hold the same sums.
-/
import Idealize.ShloMosaic.PureOps.Ideal
import Idealize.ShloMosaic.Lib.ValueIdx
import Idealize.ShloMosaic.Lib.ValueIdxRank1

noncomputable section

namespace Idealize.ShloMosaic.ScatterAddRows

open Idealize.ShloMosaic Idealize.ShloMosaic.ValueIdx

/-! ## A flat operand -/

section Flat

/-- The dimension numbers of `x.at[idx[:, 0]].add(u)` for a flat operand `[N]`, a column `[R, 1]` of destination words and
    updates `[R]`: no window axis, the operand's one axis inserted and named by the word. -/
abbrev flatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- Update `e` starts at its destination word, read signed. -/
theorem flat_start (idx : IVec ⟨2, ![R, 1]⟩ w) (e : Fin R) :
    (flatDims N R wf).start (ix1 e) idx 0 = (idx (ix2 e 0)).toInt := by
  unfold ScatterDims.start
  rw [dif_pos (show (0 : Fin 1) ∈ (flatDims N R wf).scatterDimsToOperandDims from List.mem_singleton.mpr rfl)]
  have hsi : (flatDims N R wf).siIdx (ix1 e) ⟨List.idxOf (0 : Fin 1) (flatDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The inserted axis has no window coordinate. -/
theorem flat_window (e : Fin R) : (flatDims N R wf).window (ix1 e) 0 = 0 := by
  unfold ScatterDims.window
  have hk : (0 : Fin 1) ∉ (flatDims N R wf).sKept :=
    (show (0 : Fin 1) ∉ (List.finRange 1).filter (· ∉ ([0] : List (Fin 1))) from by decide)
  rw [dif_neg hk]

/-- Update `e` lands on row `n` exactly when its destination word is `n`. -/
theorem flat_lands (idx : IVec ⟨2, ![R, 1]⟩ w) (e : Fin R) (n : Fin N) :
    (flatDims N R wf).resultIdx? (ix1 e) idx = some (ix1 n) ↔ (idx (ix2 e 0)).toInt = (n.val : Int) := by
  have hn : n.val < N := n.isLt
  unfold ScatterDims.resultIdx?
  constructor
  · intro h
    split at h
    · rename_i hh
      have h0 := congrArg (fun f : (⟨1, ![N]⟩ : Shape).Idx => (f 0).val) (Option.some.inj h)
      have hb := (hh 0).1
      rw [flat_start, flat_window] at hb
      simp only [flat_start, flat_window] at h0
      change ((idx (ix2 e 0)).toInt + ((0 : Nat) : Int)).toNat = n.val at h0
      omega
    · exact absurd h (by simp)
  · intro h
    have hall : ∀ a : Fin 1, 0 ≤ (flatDims N R wf).start (ix1 e) idx a + ((flatDims N R wf).window (ix1 e) a : Int)
        ∧ (flatDims N R wf).start (ix1 e) idx a + ((flatDims N R wf).window (ix1 e) a : Int) < (((⟨1, ![N]⟩ : Shape).size a : Nat) : Int) := by
      intro a
      obtain rfl : a = 0 := Subsingleton.elim _ _
      rw [flat_start, flat_window, h]
      change (0 : Int) ≤ (n.val : Int) + ((0 : Nat) : Int) ∧ (n.val : Int) + ((0 : Nat) : Int) < ((N : Nat) : Int)
      omega
    rw [dif_pos hall]
    congr 1
    funext a
    obtain rfl : a = 0 := Subsingleton.elim _ _
    refine Fin.ext ?_
    show ((flatDims N R wf).start (ix1 e) idx 0 + ((flatDims N R wf).window (ix1 e) 0 : Int)).toNat = n.val
    rw [flat_start, flat_window, h]
    omega

/-- THE FLAT SCATTER-ADD READ AT ROW `n`: the operand's element plus the sum of the updates whose destination word is `n`. -/
theorem scatterAdd_flat_apply (x : FVec Ideal ⟨1, ![N]⟩ .f32) (idx : IVec ⟨2, ![R, 1]⟩ w) (upd : FVec Ideal ⟨1, ![R]⟩ .f32)
    (n : Fin N) :
    Host.scatterAdd (F := Ideal) (flatDims N R wf) x idx upd (ix1 n)
      = x (ix1 n) + ∑ e ∈ Finset.univ.filter (fun e : Fin R => (idx (ix2 e 0)).toInt = (n.val : Int)), upd (ix1 e) := by
  show x (ix1 n) + ∑ j ∈ Finset.univ.filter (fun j => (flatDims N R wf).resultIdx? j idx = some (ix1 n)), upd j = _
  congr 1
  refine Finset.sum_equiv (idxEquiv1 (n := R)) (fun j => ?_) (fun j _ => ?_)
  · rw [Finset.mem_filter, Finset.mem_filter]
    obtain ⟨e, rfl⟩ : ∃ e : Fin R, j = ix1 e := ⟨j 0, eq_ix1 j⟩
    simp only [Finset.mem_univ, true_and]
    exact flat_lands wf idx e n
  · exact congrArg upd (eq_ix1 j)

end Flat

/-! ## A column operand -/

section Col

/-- The dimension numbers of the same accumulation for a column operand `[N, 1]` and updates `[R, 1]`: the updates' unit
    axis is the window axis and goes to the operand's unit axis. -/
abbrev colDims (N R : Nat) (wf : ScatterDims.WF ⟨2, ![N, 1]⟩ ⟨2, ![R, 1]⟩ ⟨2, ![R, 1]⟩ [1] [0] [0] 1) :
    ScatterDims ⟨2, ![N, 1]⟩ ⟨2, ![R, 1]⟩ ⟨2, ![R, 1]⟩ where
  updateWindowDims := [1]
  insertedWindowDims := [0]
  scatterDimsToOperandDims := [0]
  indexVectorDim := 1
  wf := wf

variable {N R w : Nat} (wf : ScatterDims.WF ⟨2, ![N, 1]⟩ ⟨2, ![R, 1]⟩ ⟨2, ![R, 1]⟩ [1] [0] [0] 1)

/-- On the row axis update `(e, 0)` starts at its destination word, read signed. -/
theorem col_start0 (idx : IVec ⟨2, ![R, 1]⟩ w) (e : Fin R) :
    (colDims N R wf).start (ix2 e 0) idx 0 = (idx (ix2 e 0)).toInt := by
  unfold ScatterDims.start
  rw [dif_pos (show (0 : Fin 2) ∈ (colDims N R wf).scatterDimsToOperandDims from List.mem_singleton.mpr rfl)]
  have hsi : (colDims N R wf).siIdx (ix2 e 0) ⟨List.idxOf (0 : Fin 2) (colDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the unit axis every update starts at 0. -/
theorem col_start1 (idx : IVec ⟨2, ![R, 1]⟩ w) (e : Fin R) : (colDims N R wf).start (ix2 e 0) idx 1 = 0 := by
  unfold ScatterDims.start
  have hk : (1 : Fin 2) ∉ (colDims N R wf).scatterDimsToOperandDims := (show (1 : Fin 2) ∉ ([0] : List (Fin 2)) from by decide)
  rw [dif_neg hk]

/-- The inserted row axis has no window coordinate. -/
theorem col_window0 (e : Fin R) : (colDims N R wf).window (ix2 e 0) 0 = 0 := by
  unfold ScatterDims.window
  have hk : (0 : Fin 2) ∉ (colDims N R wf).sKept :=
    (show (0 : Fin 2) ∉ (List.finRange 2).filter (· ∉ ([0] : List (Fin 2))) from by decide)
  rw [dif_neg hk]

/-- The unit axis's window coordinate is the update's own, 0. -/
theorem col_window1 (e : Fin R) : (colDims N R wf).window (ix2 e 0) 1 = 0 := by
  unfold ScatterDims.window
  have hk : (1 : Fin 2) ∈ (colDims N R wf).sKept :=
    (show (1 : Fin 2) ∈ (List.finRange 2).filter (· ∉ ([0] : List (Fin 2))) from by decide)
  rw [dif_pos hk]
  rfl

/-- Update `(e, 0)` lands on `(n, 0)` exactly when its destination word is `n`. -/
theorem col_lands (idx : IVec ⟨2, ![R, 1]⟩ w) (e : Fin R) (n : Fin N) :
    (colDims N R wf).resultIdx? (ix2 e 0) idx = some (ix2 n 0) ↔ (idx (ix2 e 0)).toInt = (n.val : Int) := by
  have hn : n.val < N := n.isLt
  unfold ScatterDims.resultIdx?
  constructor
  · intro h
    split at h
    · rename_i hh
      have h0 := congrArg (fun f : (⟨2, ![N, 1]⟩ : Shape).Idx => (f 0).val) (Option.some.inj h)
      have hb := (hh 0).1
      rw [col_start0, col_window0] at hb
      simp only [col_start0, col_window0] at h0
      change ((idx (ix2 e 0)).toInt + ((0 : Nat) : Int)).toNat = n.val at h0
      omega
    · exact absurd h (by simp)
  · intro h
    have hall : ∀ a : Fin 2, 0 ≤ (colDims N R wf).start (ix2 e 0) idx a + ((colDims N R wf).window (ix2 e 0) a : Int)
        ∧ (colDims N R wf).start (ix2 e 0) idx a + ((colDims N R wf).window (ix2 e 0) a : Int) < (((⟨2, ![N, 1]⟩ : Shape).size a : Nat) : Int) := by
      intro a
      match a with
      | ⟨0, _⟩ =>
        show 0 ≤ (colDims N R wf).start (ix2 e 0) idx 0 + ((colDims N R wf).window (ix2 e 0) 0 : Int)
          ∧ (colDims N R wf).start (ix2 e 0) idx 0 + ((colDims N R wf).window (ix2 e 0) 0 : Int) < ((N : Nat) : Int)
        rw [col_start0, col_window0, h]; omega
      | ⟨1, _⟩ =>
        show 0 ≤ (colDims N R wf).start (ix2 e 0) idx 1 + ((colDims N R wf).window (ix2 e 0) 1 : Int)
          ∧ (colDims N R wf).start (ix2 e 0) idx 1 + ((colDims N R wf).window (ix2 e 0) 1 : Int) < ((1 : Nat) : Int)
        rw [col_start1, col_window1]; omega
    rw [dif_pos hall]
    congr 1
    funext a
    refine Fin.ext ?_
    match a with
    | ⟨0, _⟩ =>
      show ((colDims N R wf).start (ix2 e 0) idx 0 + ((colDims N R wf).window (ix2 e 0) 0 : Int)).toNat = n.val
      rw [col_start0, col_window0, h]; omega
    | ⟨1, _⟩ =>
      show ((colDims N R wf).start (ix2 e 0) idx 1 + ((colDims N R wf).window (ix2 e 0) 1 : Int)).toNat = 0
      rw [col_start1, col_window1]; rfl

/-- A column's index set is its row range. -/
def colEquiv {n : Nat} : (⟨2, ![n, 1]⟩ : Shape).Idx ≃ Fin n where
  toFun i := i 0
  invFun e := ix2 e 0
  left_inv i := by
    have h1 : i 1 = (0 : Fin 1) := Fin.ext (by have h : (i 1).val < 1 := (i 1).isLt; show (i 1).val = 0; omega)
    have := eq_ix2 i
    rw [h1] at this
    exact this.symm
  right_inv _ := rfl

/-- Every index of a column is `(e, 0)`. -/
theorem eq_col {n : Nat} (j : (⟨2, ![n, 1]⟩ : Shape).Idx) : j = ix2 (j 0) 0 := (colEquiv.left_inv j).symm

/-- THE COLUMN SCATTER-ADD READ AT `(n, 0)`: the operand's element plus the sum of the updates whose destination word is `n`. -/
theorem scatterAdd_col_apply (x : FVec Ideal ⟨2, ![N, 1]⟩ .f32) (idx : IVec ⟨2, ![R, 1]⟩ w)
    (upd : FVec Ideal ⟨2, ![R, 1]⟩ .f32) (n : Fin N) :
    Host.scatterAdd (F := Ideal) (colDims N R wf) x idx upd (ix2 n 0)
      = x (ix2 n 0) + ∑ e ∈ Finset.univ.filter (fun e : Fin R => (idx (ix2 e 0)).toInt = (n.val : Int)), upd (ix2 e 0) := by
  show x (ix2 n 0) + ∑ j ∈ Finset.univ.filter (fun j => (colDims N R wf).resultIdx? j idx = some (ix2 n 0)), upd j = _
  congr 1
  refine Finset.sum_equiv (colEquiv (n := R)) (fun j => ?_) (fun j _ => ?_)
  · rw [Finset.mem_filter, Finset.mem_filter]
    obtain ⟨e, rfl⟩ : ∃ e : Fin R, j = ix2 e 0 := ⟨j 0, eq_col j⟩
    simp only [Finset.mem_univ, true_and]
    exact col_lands wf idx e n
  · exact congrArg upd (eq_col j)

end Col

end Idealize.ShloMosaic.ScatterAddRows

end
-- ==== Proof.SageMean.lean ====
import proofs.«181414_j59219009077768_1_alg».proof.Proof.LibScatterAddRows
import Idealize.ShloMosaic.PureOps.Ideal.Laws
import Idealize.ShloMosaic.Lib.ValueIdx
import Idealize.ShloMosaic.Lib.StableHlo.Predicate

/-!
# The mean over a node's incoming edges, in two spellings

A node's in-degree is the number of edges whose destination word names it: a sum of ones, so a natural number. Clamped
below by one it is a nonzero real `d`. The sum `s` of the incoming rows is then averaged either as `s · (1 / d)` (the
reciprocal computed once per node and laid along the rows) or as `s / d`; for a nonzero real `d` these are the same
extended real, whatever `s` is (also at an infinite `s`: both are `s · d⁻¹`).
-/

noncomputable section

namespace Cert.Sage

open Idealize.ShloMosaic Idealize.ShloMosaic.ValueIdx

/-- The word of `1.0` denotes the real one. -/
theorem one_f32 : Ideal.ofBits .f32 0x3F800000#32 = 1 := by
  simp [Ideal.ofBits, Ideal.ieee, -EReal.coe_mul]; norm_num

/-- A sum of ones over a finite set is the set's size. -/
theorem sum_ones {ι : Type} (s : Finset ι) : ∑ _e ∈ s, (1 : EReal) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- For a nonzero real `r`: `s · (1 / r) = s / r` on every extended real `s`. -/
theorem mul_recip_eq_div (s : EReal) {r : ℝ} (hr : r ≠ 0) : s * Ideal.div 1 (r : EReal) = Ideal.div s (r : EReal) := by
  rw [Ideal.div_coe hr, Ideal.div_coe hr, one_mul]

/-- THE CLAMPED IN-DEGREE IS A NONZERO REAL: ones scattered onto zeros by destination word count the edges into node `n`;
    the maximum of that count and one is a real number, at least one. -/
theorem degree_real {N R w : Nat} (wf : ScatterDims.WF ⟨1, ![N]⟩ ⟨2, ![R, 1]⟩ ⟨1, ![R]⟩ [] [0] [0] 1)
    (hN : (⟨0, ![]⟩ : Shape).BroadcastsInDim ⟨1, ![N]⟩ ![]) (hR : (⟨0, ![]⟩ : Shape).BroadcastsInDim ⟨1, ![R]⟩ ![])
    (idx : IVec ⟨2, ![R, 1]⟩ w) (n : Fin N) :
    ∃ r : ℝ, r ≠ 0 ∧
      maximumf (Host.scatterAdd (F := Ideal) (ScatterAddRows.flatDims N R wf)
          (broadcastInDim ⟨1, ![N]⟩ ![] hN (constant (F := Ideal) ⟨0, ![]⟩ .f32 0x00000000#32)) idx
          (broadcastInDim ⟨1, ![R]⟩ ![] hR (constant (F := Ideal) ⟨0, ![]⟩ .f32 0x3F800000#32)))
        (broadcastInDim ⟨1, ![N]⟩ ![] hN (constant (F := Ideal) ⟨0, ![]⟩ .f32 0x3F800000#32)) (ix1 n) = (r : EReal) := by
  refine ⟨max ((Finset.univ.filter (fun e : Fin R => (idx (ix2 e 0)).toInt = (n.val : Int))).card : ℝ) 1, ?_, ?_⟩
  · have h : (1 : ℝ) ≤ max ((Finset.univ.filter (fun e : Fin R => (idx (ix2 e 0)).toInt = (n.val : Int))).card : ℝ) 1 :=
      le_max_right _ _
    intro h0; rw [h0] at h; norm_num at h
  · rw [maximumf_apply, ScatterAddRows.scatterAdd_flat_apply]
    have hu : ∀ e : Fin R, broadcastInDim ⟨1, ![R]⟩ ![] hR (constant (F := Ideal) ⟨0, ![]⟩ .f32 0x3F800000#32) (ix1 e) = 1 :=
      fun e => by rw [StableHlo.Predicate.bcast_scalar hR (by decide), constant_apply, one_f32]
    rw [Finset.sum_congr rfl (fun e _ => hu e), sum_ones,
      StableHlo.Predicate.bcast_scalar hN (by decide), StableHlo.Predicate.bcast_scalar hN (by decide),
      constant_apply, constant_apply, one_f32, Ideal.ofBits_zero_f32, zero_add, ← EReal.coe_one]
    exact (EReal.coe_strictMono.monotone.map_max).symm

/-- THE TWO SPELLINGS OF THE MEAN AGREE: with the per-node divisor `d` a nonzero real at every node, the sums times the
    reciprocal `1 / d` laid along the rows are the sums divided by `d` laid along the rows. -/
theorem mean_mul_eq_div {N D : Nat} (h₁ : (⟨1, ![N]⟩ : Shape).BroadcastsInDim ⟨2, ![N, 1]⟩ ![0])
    (h₂ : (⟨2, ![N, 1]⟩ : Shape).BroadcastsInDim ⟨2, ![N, D]⟩ ![0, 1])
    (S : FVec Ideal ⟨2, ![N, D]⟩ .f32) (one d : FVec Ideal ⟨1, ![N]⟩ .f32)
    (hone : ∀ n : Fin N, one (ix1 n) = 1) (hd : ∀ n : Fin N, ∃ r : ℝ, r ≠ 0 ∧ d (ix1 n) = (r : EReal)) :
    mulf S (broadcastInDim ⟨2, ![N, D]⟩ ![0, 1] h₂ (broadcastInDim ⟨2, ![N, 1]⟩ ![0] h₁ (Host.divf one d)))
      = Host.divf S (broadcastInDim ⟨2, ![N, D]⟩ ![0, 1] h₂ (broadcastInDim ⟨2, ![N, 1]⟩ ![0] h₁ d)) := by
  funext i
  obtain ⟨p, q, rfl⟩ : ∃ (p : Fin N) (q : Fin D), i = StableHlo.Predicate.ij p q :=
    ⟨i 0, i 1, (StableHlo.Predicate.ij_eta i).symm⟩
  have e1 : (Shape.Idx.ofFin p : (⟨1, ![N]⟩ : Shape).Idx) = ix1 p := by
    funext a; match a with | ⟨0, _⟩ => rfl
  obtain ⟨r, hr, hdr⟩ := hd p
  show S _ * _ = Ideal.div (S _) _
  rw [StableHlo.Predicate.bcast_rows, StableHlo.Predicate.bcast_rows, e1, hdr]
  show S _ * Ideal.div (one (ix1 p)) (d (ix1 p)) = _
  rw [hone, hdr]
  exact mul_recip_eq_div _ hr

end Cert.Sage

end
-- ==== Proof.SageNet.lean ====
import proofs.«181414_j59219009077768_1_alg».proof.Proof.Gen.KernelIdeal
import proofs.«181414_j59219009077768_1_alg».proof.Proof.SageMean
import proofs.«181414_j59219009077768_1_alg».proof.Proof.SageDense

/-!
# The two-layer network as one function of the eight arguments, in the kernel's spelling and in the reference's

Both programs gather the source rows of every edge (a negative source word wrapped by the number of nodes), add them
into their destination nodes, and average by the clamped in-degree; then each layer is the dense part of the averaged
rows and of the node's own row, the first layer followed by `relu`. The programs differ in two places only: the mean is
the sum times a reciprocal (`meanMul`) or the sum divided (`meanDiv`), and the bias enters the dense part last or
between the two products. `SageMean` and `SageDense` show that neither changes a value, so the two networks are one
function (`netMul_eq_netDiv`).
-/

noncomputable section

namespace Cert.KernelIdeal.Net

open Cert.KernelIdeal Cert.KernelIdeal.Facts₀ Idealize.ShloMosaic Idealize.ShloMosaic.ValueIdx Cert.LibDense Cert.Sage

/-- The edges' source words: row 0 of the edge array. -/
def src (e : IVec S2x1600000 32) : IVec S1600000 32 :=
  shapeCast S1600000 (extractStridedSlice S1x1600000 ![0, 0] e slices_S2x1600000_S1x1600000_0_0) shapeCasts_S1x1600000_S1600000

/-- The edges' destination words: row 1 of the edge array. -/
def dst (e : IVec S2x1600000 32) : IVec S1600000 32 :=
  shapeCast S1600000 (extractStridedSlice S1x1600000 ![1, 0] e slices_S2x1600000_S1x1600000_1_0) shapeCasts_S1x1600000_S1600000

/-- The source words as a column of gather indices, a negative word wrapped by the number of nodes. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The rows of `x` gathered along the edges' sources and added into the edges' destinations. -/
def segSum (x : FVec Ideal S100000x128 .f32) (s d : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 x (srcCol s))

/-- The in-degree of every node, clamped below by one. -/
def degMax (d : IVec S1600000 32) : FVec Ideal S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32))

/-- The reciprocal of the clamped in-degree, as a column. -/
def recipCol (d : IVec S1600000 32) : FVec Ideal S100000x1 .f32 :=
  broadcastInDim S100000x1 ![0] bcast_S100000_S100000x1_0
    (Host.divf (broadcastInDim S100000 ![] bcast_S_S100000 (constant S_ .f32 0x3F800000#32)) (degMax d))

/-- The mean of the incoming rows as the sum times the reciprocal degree. -/
def meanMul (x : FVec Ideal S100000x128 .f32) (s d : IVec S1600000 32) : FVec Ideal S100000x128 .f32 :=
  mulf (segSum x s d) (broadcastInDim S100000x128 ![0, 1] bcast_S100000x1_S100000x128_0_1 (recipCol d))

/-- The mean of the incoming rows as the sum divided by the degree. -/
def meanDiv (x : FVec Ideal S100000x128 .f32) (s d : IVec S1600000 32) : FVec Ideal S100000x128 .f32 :=
  Host.divf (segSum x s d)
    (broadcastInDim S100000x128 ![0, 1] bcast_S100000x1_S100000x128_0_1
      (broadcastInDim S100000x1 ![0] bcast_S100000_S100000x1_0 (degMax d)))

/-- The degree count's scatter inserts the one node axis, named by the destination word. -/
theorem scatter_flat : scatter_S100000_S1600000x1_S1600000_n_0_0_1
    = ScatterAddRows.flatDims 100000 1600000 scatter_S100000_S1600000x1_S1600000_n_0_0_1_wf := rfl

/-- The clamped in-degree is a nonzero real at every node. -/
theorem degMax_real (d : IVec S1600000 32) (n : Fin 100000) : ∃ r : ℝ, r ≠ 0 ∧ degMax d (ix1 n) = (r : EReal) := by
  unfold degMax
  rw [scatter_flat]
  have h := degree_real (N := 100000) (R := 1600000) scatter_S100000_S1600000x1_S1600000_n_0_0_1_wf bcast_S_S100000
    bcast_S_S1600000 (broadcastInDim S1600000x1 ![0] bcast_S1600000_S1600000x1_0 d) n
  exact h

/-- The two means are one array. -/
theorem meanMul_eq_meanDiv (x : FVec Ideal S100000x128 .f32) (s d : IVec S1600000 32) : meanMul x s d = meanDiv x s d :=
  mean_mul_eq_div (N := 100000) (D := 128) bcast_S100000_S100000x1_0 bcast_S100000x1_S100000x128_0_1 (segSum x s d)
    (broadcastInDim S100000 ![] bcast_S_S100000 (constant S_ .f32 0x3F800000#32)) (degMax d)
    (fun n => by rw [StableHlo.Predicate.bcast_scalar bcast_S_S100000 (by decide), constant_apply, one_f32])
    (degMax_real d)

/-- One layer over a mean `μ`: the dense part of the averaged rows and the node's own rows, the weights transposed, the
    bias as a row. -/
def layer1 (μ x : FVec Ideal S100000x128 .f32) (wl : FVec Ideal S128x128 .f32) (b : FVec Ideal S128 .f32)
    (wr : FVec Ideal S128x128 .f32) : FVec Ideal S100000x128 .f32 :=
  reluM (dense (M := 100000) (K := 128) (N := 128) μ x (transpose S128x128 [1, 0] wl transposes_S128x128_S128x128_1_0)
    (transpose S128x128 [1, 0] wr transposes_S128x128_S128x128_1_0) (shapeCast S1x128 b shapeCasts_S128_S1x128))

def layer2 (μ x : FVec Ideal S100000x128 .f32) (wl : FVec Ideal S64x128 .f32) (b : FVec Ideal S64 .f32)
    (wr : FVec Ideal S64x128 .f32) : FVec Ideal S100000x64 .f32 :=
  dense (M := 100000) (K := 128) (N := 64) μ x (transpose S128x64 [1, 0] wl transposes_S64x128_S128x64_1_0)
    (transpose S128x64 [1, 0] wr transposes_S64x128_S128x64_1_0) (shapeCast S1x64 b shapeCasts_S64_S1x64)

/-- The network with the mean as a product with the reciprocal degree. -/
def netMul (x : FVec Ideal S100000x128 .f32) (e : IVec S2x1600000 32) (wl1 : FVec Ideal S128x128 .f32) (b1 : FVec Ideal S128 .f32)
    (wr1 : FVec Ideal S128x128 .f32) (wl2 : FVec Ideal S64x128 .f32) (b2 : FVec Ideal S64 .f32) (wr2 : FVec Ideal S64x128 .f32) :
    FVec Ideal S100000x64 .f32 :=
  layer2 (meanMul (layer1 (meanMul x (src e) (dst e)) x wl1 b1 wr1) (src e) (dst e))
    (layer1 (meanMul x (src e) (dst e)) x wl1 b1 wr1) wl2 b2 wr2

/-- The network with the mean as a quotient by the degree. -/
def netDiv (x : FVec Ideal S100000x128 .f32) (e : IVec S2x1600000 32) (wl1 : FVec Ideal S128x128 .f32) (b1 : FVec Ideal S128 .f32)
    (wr1 : FVec Ideal S128x128 .f32) (wl2 : FVec Ideal S64x128 .f32) (b2 : FVec Ideal S64 .f32) (wr2 : FVec Ideal S64x128 .f32) :
    FVec Ideal S100000x64 .f32 :=
  layer2 (meanDiv (layer1 (meanDiv x (src e) (dst e)) x wl1 b1 wr1) (src e) (dst e))
    (layer1 (meanDiv x (src e) (dst e)) x wl1 b1 wr1) wl2 b2 wr2

/-- The two networks are one function of the arguments. -/
theorem netMul_eq_netDiv (x : FVec Ideal S100000x128 .f32) (e : IVec S2x1600000 32) (wl1 : FVec Ideal S128x128 .f32)
    (b1 : FVec Ideal S128 .f32) (wr1 : FVec Ideal S128x128 .f32) (wl2 : FVec Ideal S64x128 .f32) (b2 : FVec Ideal S64 .f32)
    (wr2 : FVec Ideal S64x128 .f32) : netMul x e wl1 b1 wr1 wl2 b2 wr2 = netDiv x e wl1 b1 wr1 wl2 b2 wr2 := by
  unfold netMul netDiv
  rw [meanMul_eq_meanDiv, meanMul_eq_meanDiv]

end Cert.KernelIdeal.Net

end
-- ==== Proof.KernelValue.lean ====
import proofs.«181414_j59219009077768_1_alg».proof.Proof.Gen.KernelIdeal.Frame
import proofs.«181414_j59219009077768_1_alg».proof.Proof.KernelRegion0
import proofs.«181414_j59219009077768_1_alg».proof.Proof.KernelRegion1
import proofs.«181414_j59219009077768_1_alg».proof.Proof.SageNet
import Idealize.ShloMosaic.Lib.StableHlo.Run

/-!
# What the kernel's program computes

The program is four stretches: host operations that gather, add and average the node features and lay out the first
layer's weights; the first layer's call; host operations that do the same with the hidden rows and the second layer's
weights; the second layer's call. Read stretch by stretch — each host stretch as the composed term of its operations
over the arrays it finds, each call as the array `KernelRegion0` / `KernelRegion1` say it leaves — the result array
ends at `netMul` of the eight arguments.
-/

set_option maxRecDepth 16384

noncomputable section

namespace Cert.KernelIdeal.Whole

open Cert.KernelIdeal Cert.KernelIdeal.Gen Cert.KernelIdeal.Net
open Idealize.ShloMosaic Idealize.ShloMosaic.TcCoe Idealize.SL.Sem Idealize.ShloMosaic.StableHlo
open Cert.LibDense Cert.Sage

variable (m : (ℓ : Loc nD τ sig) → Buf (Elt Ideal) ℓ) (ρ : Dev nD → PrngReg)

/-! ## The first host stretch, over the launch memory -/

theorem V1_arg0 (c : Dev nD) : V1 m ρ c main_arg0 = m ((c.tc : Thread nD τ).loc main_arg0) := by
  show StableHlo.after hostOps0 (W0 m ρ c) (Proc.devRef .tc main_arg0) = _
  after_results
  all_goals rfl

theorem V1_v1 (c : Dev nD) : V1 m ρ c main_v1 = src (m ((c.tc : Thread nD τ).loc main_arg1)) := by
  show StableHlo.after hostOps0 (W0 m ρ c) (Proc.devRef .tc main_v1) = _
  after_results
  all_goals rfl

theorem V1_v3 (c : Dev nD) : V1 m ρ c main_v3 = dst (m ((c.tc : Thread nD τ).loc main_arg1)) := by
  show StableHlo.after hostOps0 (W0 m ρ c) (Proc.devRef .tc main_v3) = _
  after_results
  all_goals rfl

theorem V1_v12 (c : Dev nD) : V1 m ρ c main_v12 = recipCol (dst (m ((c.tc : Thread nD τ).loc main_arg1))) := by
  show StableHlo.after hostOps0 (W0 m ρ c) (Proc.devRef .tc main_v12) = _
  after_results
  all_goals rfl

set_option maxHeartbeats 4000000 in
theorem V1_v24 (c : Dev nD) : V1 m ρ c main_v24
    = meanMul (m ((c.tc : Thread nD τ).loc main_arg0)) (src (m ((c.tc : Thread nD τ).loc main_arg1))) (dst (m ((c.tc : Thread nD τ).loc main_arg1))) := by
  show StableHlo.after hostOps0 (W0 m ρ c) (Proc.devRef .tc main_v24) = _
  after_results_simp
  all_goals rfl

theorem V1_v25 (c : Dev nD) : V1 m ρ c main_v25
    = transpose S128x128 [1, 0] (m ((c.tc : Thread nD τ).loc main_arg2)) Facts₀.transposes_S128x128_S128x128_1_0 := by
  show StableHlo.after hostOps0 (W0 m ρ c) (Proc.devRef .tc main_v25) = _
  after_results
  all_goals rfl

theorem V1_v26 (c : Dev nD) : V1 m ρ c main_v26
    = transpose S128x128 [1, 0] (m ((c.tc : Thread nD τ).loc main_arg4)) Facts₀.transposes_S128x128_S128x128_1_0 := by
  show StableHlo.after hostOps0 (W0 m ρ c) (Proc.devRef .tc main_v26) = _
  after_results
  all_goals rfl

theorem V1_v27 (c : Dev nD) : V1 m ρ c main_v27
    = shapeCast S1x128 (m ((c.tc : Thread nD τ).loc main_arg3)) Facts₀.shapeCasts_S128_S1x128 := by
  show StableHlo.after hostOps0 (W0 m ρ c) (Proc.devRef .tc main_v27) = _
  after_results
  all_goals rfl

/-- The hidden rows: the first layer over the mean of the node features. -/
theorem hidden_eq (c : Dev nD) : Layer1.hidden (V1 m ρ) c
    = layer1 (meanMul (m ((c.tc : Thread nD τ).loc main_arg0)) (src (m ((c.tc : Thread nD τ).loc main_arg1))) (dst (m ((c.tc : Thread nD τ).loc main_arg1))))
        (m ((c.tc : Thread nD τ).loc main_arg0)) (m ((c.tc : Thread nD τ).loc main_arg2)) (m ((c.tc : Thread nD τ).loc main_arg3))
        (m ((c.tc : Thread nD τ).loc main_arg4)) := by
  unfold Layer1.hidden layer1
  rw [V1_v24, V1_arg0, V1_v25, V1_v26, V1_v27]

/-! ## After the first call -/

theorem W2_v28 (c : Dev nD) : W2 m ρ c (Proc.devRef .tc main_v28) = Layer1.hidden (V1 m ρ) c :=
  (W2_arr m ρ c 5).trans (Layer1.final (V1 m ρ) c)

theorem W2_v1 (c : Dev nD) : W2 m ρ c (Proc.devRef .tc main_v1) = src (m ((c.tc : Thread nD τ).loc main_arg1)) :=
  (W2_of_ne m ρ c main_v1 (by decide)).trans (V1_v1 m ρ c)

theorem W2_v3 (c : Dev nD) : W2 m ρ c (Proc.devRef .tc main_v3) = dst (m ((c.tc : Thread nD τ).loc main_arg1)) :=
  (W2_of_ne m ρ c main_v3 (by decide)).trans (V1_v3 m ρ c)

theorem W2_v12 (c : Dev nD) : W2 m ρ c (Proc.devRef .tc main_v12) = recipCol (dst (m ((c.tc : Thread nD τ).loc main_arg1))) :=
  (W2_of_ne m ρ c main_v12 (by decide)).trans (V1_v12 m ρ c)

theorem W2_arg5 (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results
  all_goals rfl

theorem W2_arg6 (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results
  all_goals rfl

theorem W2_arg7 (c : Dev nD) : W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = _
  after_results
  all_goals rfl

/-! ## The second host stretch, over what the first call left -/

theorem V3_v28 (c : Dev nD) : V3 m ρ c main_v28 = Layer1.hidden (V1 m ρ) c := by
  show StableHlo.after hostOps1 (W2 m ρ c) (Proc.devRef .tc main_v28) = _
  after_results
  exact W2_v28 m ρ c

set_option maxHeartbeats 4000000 in
theorem V3_v40 (c : Dev nD) : V3 m ρ c main_v40
    = meanMul (Layer1.hidden (V1 m ρ) c) (src (m ((c.tc : Thread nD τ).loc main_arg1))) (dst (m ((c.tc : Thread nD τ).loc main_arg1))) := by
  show StableHlo.after hostOps1 (W2 m ρ c) (Proc.devRef .tc main_v40) = _
  after_results_simp
  rw [W2_v1, W2_v3, W2_v12, W2_v28]
  rfl

theorem V3_v41 (c : Dev nD) : V3 m ρ c main_v41
    = transpose S128x64 [1, 0] (m ((c.tc : Thread nD τ).loc main_arg5)) Facts₀.transposes_S64x128_S128x64_1_0 := by
  show StableHlo.after hostOps1 (W2 m ρ c) (Proc.devRef .tc main_v41) = _
  after_results
  rw [W2_arg5]

theorem V3_v42 (c : Dev nD) : V3 m ρ c main_v42
    = transpose S128x64 [1, 0] (m ((c.tc : Thread nD τ).loc main_arg7)) Facts₀.transposes_S64x128_S128x64_1_0 := by
  show StableHlo.after hostOps1 (W2 m ρ c) (Proc.devRef .tc main_v42) = _
  after_results
  rw [W2_arg7]

theorem V3_v43 (c : Dev nD) : V3 m ρ c main_v43
    = shapeCast S1x64 (m ((c.tc : Thread nD τ).loc main_arg6)) Facts₀.shapeCasts_S64_S1x64 := by
  show StableHlo.after hostOps1 (W2 m ρ c) (Proc.devRef .tc main_v43) = _
  after_results
  rw [W2_arg6]
  rfl

/-! ## The result -/

/-- THE KERNEL'S RESULT ARRAY after the run is `netMul` of the eight arguments. -/
theorem out_eq (c : Dev nD) : W4 m ρ c (Proc.devRef .tc main_v44)
    = netMul (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  refine (W4_arr m ρ c 5).trans ?_
  rw [Layer2.final]
  unfold Layer2.out netMul layer2
  rw [V3_v40, V3_v28, V3_v41, V3_v42, V3_v43, hidden_eq]

end Cert.KernelIdeal.Whole

end
-- ==== Proof.RefValue.lean ====
import proofs.«181414_j59219009077768_1_alg».proof.Proof.Gen.ReferenceIdeal.Run
import proofs.«181414_j59219009077768_1_alg».proof.Proof.SageNet

/-!
# What the reference computes

The reference's run ends with its result at the composed term of its operations. Read in pieces, that term is the
network with the mean taken as a quotient (`netDiv`): each layer's three summands — first product, bias laid along the
columns, second product — are the dense part (`hostDense_eq`), and the maximum with the zero splat between the layers
is `relu` entry by entry.
-/

noncomputable section

namespace Cert.ReferenceIdeal.Hand

open Cert.ReferenceIdeal Idealize.ShloMosaic Idealize.ShloMosaic.TcCoe Idealize.SL.Sem
open Cert.LibDense Cert.Sage

/-- The reference's two contractions are the plain rank-2 one: rows by columns over the shared axis of length 128. -/
theorem dot_hidden : dot_S100000x128_S128x128_S100000x128_1_0_0_1_n_n = DotDims.plain 100000 128 128 := rfl
theorem dot_out : dot_S100000x128_S128x64_S100000x64_1_0_0_1_n_n = DotDims.plain 100000 128 64 := rfl

/-- THE REFERENCE'S RESULT is `netDiv` of its eight arguments. -/
theorem result_eq (m : (ℓ : Loc nD τ sig) → Buf (Elt Ideal) ℓ) (c : Dev nD) :
    Value.res_main_v62 (F := Ideal) m c
      = Cert.KernelIdeal.Net.netDiv (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Value.res_main_v62
  rw [dot_hidden, dot_out]
  rw [hostDense_eq 100000 128 64 none _ _ Cert.KernelIdeal.Facts₀.shapeCasts_S64_S1x64, hostRelu_eq,
    hostDense_eq 100000 128 128 none _ _ Cert.KernelIdeal.Facts₀.shapeCasts_S128_S1x128]
  rfl

end Cert.ReferenceIdeal.Hand

end
-- ==== Proof.lean ====
/-
  The kernel's program — two tiled dense-layer calls among host operations that gather, add and average rows along the
  edges — against the plain jnp two-layer network, over the extended reals.

  Both programs compute, per layer, the mean of each node's incoming rows and then
  `mean · Wlᵀ + b + x · Wrᵀ` (the first layer followed by relu). They differ in two places. The kernel's program
  multiplies the summed rows by the reciprocal `1 / max(deg, 1)`, the reference divides by `max(deg, 1)`: the clamped
  in-degree is a count of edges, a real number at least one, and for a nonzero real divisor the product with the
  reciprocal is the quotient on every extended real. And the kernel adds the bias after both products while the
  reference adds it between them: addition of extended reals is commutative and associative. Neither step needs the
  inputs finite, so the precondition is never opened. The change of format to bf16 in front of the kernel's products is
  the identity on extended reals.

  The kernel side is read off the run of its four stretches (Proof/KernelRun.lean, Proof/KernelValue.lean): each call
  leaves `dense` of the arrays it reads, block by block (Proof/KernelRegion0.lean, Proof/KernelRegion1.lean), each host
  stretch its operations' composed term. The reference side is its run's term read in pieces (Proof/RefValue.lean).
  The two readings meet in `netMul_eq_netDiv` (Proof/SageNet.lean).
-/
import proofs.«181414_j59219009077768_1_alg».proof.Defs
import proofs.«181414_j59219009077768_1_alg».proof.Proof.Gen.Kernel
import proofs.«181414_j59219009077768_1_alg».proof.Proof.Gen.Kernel.Skeleton
import proofs.«181414_j59219009077768_1_alg».proof.Proof.Gen.Kernel.Launch
import proofs.«181414_j59219009077768_1_alg».proof.Proof.Gen.Kernel.Points
import proofs.«181414_j59219009077768_1_alg».proof.Proof.Gen.Kernel.Frame
import proofs.«181414_j59219009077768_1_alg».proof.Proof.Gen.KernelIdeal
import proofs.«181414_j59219009077768_1_alg».proof.Proof.Gen.KernelIdeal.Skeleton
import proofs.«181414_j59219009077768_1_alg».proof.Proof.Gen.KernelIdeal.Launch
import proofs.«181414_j59219009077768_1_alg».proof.Proof.Gen.KernelIdeal.Points
import proofs.«181414_j59219009077768_1_alg».proof.Proof.Gen.KernelIdeal.Frame
import proofs.«181414_j59219009077768_1_alg».proof.Proof.Gen.ReferenceIdeal
import proofs.«181414_j59219009077768_1_alg».proof.Proof.Gen.Pre_finite_inputs
import proofs.«181414_j59219009077768_1_alg».proof.Proof.Gen.ReferenceIdeal.Run
import proofs.«181414_j59219009077768_1_alg».proof.Proof.KernelRun
import proofs.«181414_j59219009077768_1_alg».proof.Proof.KernelValue
import proofs.«181414_j59219009077768_1_alg».proof.Proof.RefValue
import Idealize.ShloMosaic.Adequacy
import Idealize.ShloMosaic.Init

noncomputable section

namespace Cert.Proof

open Idealize.ShloMosaic Idealize.SL.Sem

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the eight arguments, the kernel's program ends with its result at the network with the
    mean as a product with the reciprocal degree, the reference with its result at the network with the mean as a
    quotient: one array. -/
theorem algebraic : Cert.algebraic_KernelIdeal_ReferenceIdeal := by
  intro m ρ m' ρ' _ hagree
  refine ⟨fun c => Cert.KernelIdeal.Net.netMul
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.out_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Hand.result_eq]
    obtain ⟨e0, e1, e2, e3, e4, e5, e6, e7⟩ := hagree c
    rw [e0, e1, e2, e3, e4, e5, e6, e7]
    exact (Cert.KernelIdeal.Net.netMul_eq_netDiv _ _ _ _ _ _ _ _).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
